-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x32x32 : Shape := ⟨4, ![64, 256, 32, 32]⟩
abbrev S256x16 : Shape := ⟨2, ![256, 16]⟩
abbrev S16 : Shape := ⟨1, ![16]⟩
abbrev S16x256 : Shape := ⟨2, ![16, 256]⟩
abbrev S256 : Shape := ⟨1, ![256]⟩
abbrev S_ : Shape := ⟨0, ![]⟩

class Facts : Prop where
  bcast_S_S64x256x32x32 : S_.BroadcastsInDim S64x256x32x32 (![] : Fin 0 → Fin S64x256x32x32.rank)
  reducesTo_S64x256x32x32_S_d0_1_2_3 : S64x256x32x32.ReducesTo [0, 1, 2, 3] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x256 : S_.BroadcastsInDim S16x256 (![] : Fin 0 → Fin S16x256.rank)
  reducesTo_S16x256_S_d0_1 : S16x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S16x256 1) : IVec S_ 1 :=
  let main_c_5 : IVec S_ 1 := constantI S_ 1 1#1
  let main_v17 : IVec S_ 1 := (fun x v => Host.reduce IntOp.andi x v reducesTo_S16x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S64x256x32x32 .f32) (main_arg1 : FVec F S256x16 .f32) (main_arg2 : FVec F S16 .f32) (main_arg3 : FVec F S16x256 .f32) (main_arg4 : FVec F S256 .f32) : IVec S_ 1 :=
  let main_v0 : FVec F S64x256x32x32 .f32 := Host.absf main_arg0
  let main_cst : FVec F S_ .f32 := constant S_ .f32 0x7F800000#32
  let main_v1 : FVec F S64x256x32x32 .f32 := broadcastInDim S64x256x32x32 ![] bcast_S_S64x256x32x32 main_cst
  let main_v2 : IVec S64x256x32x32 1 := cmpf .olt main_v0 main_v1
  let main_c : IVec S_ 1 := constantI S_ 1 1#1
  let main_v3 : IVec S_ 1 := (fun x v => Host.reduce IntOp.andi x v reducesTo_S64x256x32x32_S_d0_1_2_3 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x256 .f32 := Host.absf main_arg3
  let main_cst_4 : FVec F S_ .f32 := constant S_ .f32 0x7F800000#32
  let main_v15 : FVec F S16x256 .f32 := broadcastInDim S16x256 ![] bcast_S_S16x256 main_cst_4
  let main_v16 : IVec S16x256 1 := cmpf .olt main_v14 main_v15
  fn_part1 (F := F) main_arg4 main_v13 main_v16
-- ==== Kernel.lean ====
abbrev S64x256x32x32 : Shape := ⟨4, ![64, 256, 32, 32]⟩
abbrev S256x16 : Shape := ⟨2, ![256, 16]⟩
abbrev S16 : Shape := ⟨1, ![16]⟩
abbrev S16x256 : Shape := ⟨2, ![16, 256]⟩
abbrev S256 : Shape := ⟨1, ![256]⟩
abbrev S1x16 : Shape := ⟨2, ![1, 16]⟩
abbrev S_ : Shape := ⟨0, ![]⟩
abbrev S1x256 : Shape := ⟨2, ![1, 256]⟩
abbrev S64x256x1024 : Shape := ⟨3, ![64, 256, 1024]⟩
abbrev S2x256x1024 : Shape := ⟨3, ![2, 256, 1024]⟩
abbrev S2x256 : Shape := ⟨2, ![2, 256]⟩
abbrev S4x256 : Shape := ⟨2, ![4, 256]⟩
abbrev S4x16 : Shape := ⟨2, ![4, 16]⟩
abbrev S2x16 : Shape := ⟨2, ![2, 16]⟩
abbrev S2x256x1 : Shape := ⟨3, ![2, 256, 1]⟩

abbrev nBuf : Space → Nat
  | .hbm => 13
  | .vmem => 8
  | .smem => 0
  | _ => 0

abbrev bufTy : (tb : Table) → Fin (tcTables nBuf tb) → BufTy
  | .hbm, ⟨0, _⟩ => ⟨S64x256x32x32, .f32⟩
  | .hbm, ⟨1, _⟩ => ⟨S256x16, .f32⟩
  | .hbm, ⟨2, _⟩ => ⟨S16, .f32⟩
  | .hbm, ⟨3, _⟩ => ⟨S16x256, .f32⟩
  | .hbm, ⟨4, _⟩ => ⟨S256, .f32⟩
  | .hbm, ⟨5, _⟩ => ⟨S1x16, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S1x256, .f32⟩
  | .hbm, ⟨10, _⟩ => ⟨S64x256x1024, .f32⟩
  | .hbm, ⟨11, _⟩ => ⟨S64x256x1024, .f32⟩
  | .hbm, ⟨12, _⟩ => ⟨S64x256x32x32, .f32⟩
  | .local _ .vmem, ⟨0, _⟩ => ⟨S2x256x1024, .f32⟩
  | .local _ .vmem, ⟨1, _⟩ => ⟨S2x256x1024, .f32⟩
  | .local _ .vmem, ⟨2, _⟩ => ⟨S256x16, .f32⟩
  | .local _ .vmem, ⟨3, _⟩ => ⟨S1x16, .f32⟩
  | .local _ .vmem, ⟨4, _⟩ => ⟨S16x256, .f32⟩
  | .local _ .vmem, ⟨5, _⟩ => ⟨S1x256, .f32⟩
  | .local _ .vmem, ⟨6, _⟩ => ⟨S2x256x1024, .f32⟩
  | .local _ .vmem, ⟨7, _⟩ => ⟨S2x256x1024, .f32⟩
  | _, _ => ⟨S64x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16_S1x16 : S16.ShapeCasts S1x16
  bcast_S_S256 : S_.BroadcastsInDim S256 (![] : Fin 0 → Fin S256.rank)
  shapeCasts_S256_S1x256 : S256.ShapeCasts S1x256
  shapeCasts_S64x256x32x32_S64x256x1024 : S64x256x32x32.ShapeCasts S64x256x1024
  inb_S2x256x1024_S2x256x1024_0_0_0 : ∀ a, (![0, 0, 0] : Fin 3 → Nat) a + S2x256x1024.size a ≤ S2x256x1024.size a
  h_S2x256x1024 : 0 < S2x256x1024.numel
  shapeCasts_S2x256x1024_S2x256x1024 : S2x256x1024.ShapeCasts S2x256x1024
  reduces_S2x256x1024_S2x256 : S2x256x1024.Reduces [2] S2x256
  concatenates_S2x256_S2x256_S4x256_d0 : Shape.Concatenates [S2x256, S2x256] S4x256 0
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4x16 : S1x16.Broadcasts S4x16
  slices_S4x16_o0_0_S2x16 : S4x16.Slices ![0, 0] S2x16
  slices_S4x16_o2_0_S2x16 : S4x16.Slices ![2, 0] S2x16
  inb_S16x256_S16x256_0_0 : ∀ a, (![0, 0] : Fin 2 → Nat) a + S16x256.size a ≤ S16x256.size a
  h_S16x256 : 0 < S16x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2x256 : S1x256.Broadcasts S2x256
  shapeCasts_S2x256_S2x256x1 : S2x256.ShapeCasts S2x256x1
  broadcasts_S2x256x1_S2x256x1024 : S2x256x1.Broadcasts S2x256x1024
  shapeCasts_S64x256x1024_S64x256x32x32 : S64x256x1024.ShapeCasts S64x256x32x32
  dot_S4x256_S256x16_S4x16_1_0_0_1_n_n_wf : DotDims.WF S4x256 S256x16 S4x16 [1] [0] [0] [1] [] []
  dot_S2x16_S16x256_S2x256_1_0_0_1_n_n_wf : DotDims.WF S2x16 S16x256 S2x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x1024.size a ≤ S64x256x1024.size a
  hwx0_0 : ∀ i : grid0.Coords, EltTy.bits .f32 = 32 ∨ (Rect.block (s := S64x256x1024) S2x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S16x256.size a
  hwx0_3 : ∀ i : grid0.Coords, EltTy.bits .f32 = 32 ∨ (Rect.block (s := S16x256) S16x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x256x1024.size a ≤ S64x256x1024.size a
  hwx0_5 : ∀ i : grid0.Coords, EltTy.bits .f32 = 32 ∨ (Rect.block (s := S64x256x1024) S2x256x1024.size (cc0_transform_5 i) (hinb0_5 i)).WholeWords (EltTy.packing .f32)

variable [Facts₀]

def dot_S4x256_S256x16_S4x16_1_0_0_1_n_n : DotDims S4x256 S256x16 S4x16 where
  lhsContracting := [1]
  rhsContracting := [0]
  lhsNonContracting := [0]
  rhsNonContracting := [1]
  lhsBatch := []
  rhsBatch := []
  wf := dot_S4x256_S256x16_S4x16_1_0_0_1_n_n_wf
def dot_S2x16_S16x256_S2x256_1_0_0_1_n_n : DotDims S2x16 S16x256 S2x256 where
  lhsContracting := [1]
  rhsContracting := [0]
  lhsNonContracting := [0]
  rhsNonContracting := [1]
  lhsBatch := []
  rhsBatch := []
  wf := dot_S2x16_S16x256_S2x256_1_0_0_1_n_n_wf

abbrev win0_0 : Pipeline.Window sig grid0 :=
  Pipeline.Window.ofSpec (Memref.whole main_v4) S2x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x256x32x32 : Shape := ⟨4, ![64, 256, 32, 32]⟩
abbrev S256x16 : Shape := ⟨2, ![256, 16]⟩
abbrev S16 : Shape := ⟨1, ![16]⟩
abbrev S16x256 : Shape := ⟨2, ![16, 256]⟩
abbrev S256 : Shape := ⟨1, ![256]⟩
abbrev S1x16 : Shape := ⟨2, ![1, 16]⟩
abbrev S1x256 : Shape := ⟨2, ![1, 256]⟩
abbrev S64x256x1024 : Shape := ⟨3, ![64, 256, 1024]⟩
abbrev S2x256x1024 : Shape := ⟨3, ![2, 256, 1024]⟩
abbrev S2x256 : Shape := ⟨2, ![2, 256]⟩
abbrev S4x256 : Shape := ⟨2, ![4, 256]⟩
abbrev S4x16 : Shape := ⟨2, ![4, 16]⟩
abbrev S2x256x1 : Shape := ⟨3, ![2, 256, 1]⟩

abbrev nBuf : Space → Nat
  | .hbm => 10
  | .vmem => 8
  | .smem => 0
  | _ => 0

abbrev bufTy : (tb : Table) → Fin (tcTables nBuf tb) → BufTy
  | .hbm, ⟨0, _⟩ => ⟨S64x256x32x32, .f32⟩
  | .hbm, ⟨1, _⟩ => ⟨S256x16, .f32⟩
  | .hbm, ⟨2, _⟩ => ⟨S16, .f32⟩
  | .hbm, ⟨3, _⟩ => ⟨S16x256, .f32⟩
  | .hbm, ⟨4, _⟩ => ⟨S256, .f32⟩
  | .hbm, ⟨5, _⟩ => ⟨S1x16, .f32⟩
  | .hbm, ⟨6, _⟩ => ⟨S1x256, .f32⟩
  | .hbm, ⟨7, _⟩ => ⟨S64x256x1024, .f32⟩
  | .hbm, ⟨8, _⟩ => ⟨S64x256x1024, .f32⟩
  | .hbm, ⟨9, _⟩ => ⟨S64x256x32x32, .f32⟩
  | .local _ .vmem, ⟨0, _⟩ => ⟨S2x256x1024, .f32⟩
  | .local _ .vmem, ⟨1, _⟩ => ⟨S2x256x1024, .f32⟩
  | .local _ .vmem, ⟨2, _⟩ => ⟨S256x16, .f32⟩
  | .local _ .vmem, ⟨3, _⟩ => ⟨S1x16, .f32⟩
  | .local _ .vmem, ⟨4, _⟩ => ⟨S16x256, .f32⟩
  | .local _ .vmem, ⟨5, _⟩ => ⟨S1x256, .f32⟩
  | .local _ .vmem, ⟨6, _⟩ => ⟨S2x256x1024, .f32⟩
  | .local _ .vmem, ⟨7, _⟩ => ⟨S2x256x1024, .f32⟩
  | _, _ => ⟨S64x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16_S1x16 : S16.ShapeCasts S1x16
  shapeCasts_S256_S1x256 : S256.ShapeCasts S1x256
  shapeCasts_S64x256x32x32_S64x256x1024 : S64x256x32x32.ShapeCasts S64x256x1024
  inb_S2x256x1024_S2x256x1024_0_0_0 : ∀ a, (![0, 0, 0] : Fin 3 → Nat) a + S2x256x1024.size a ≤ S2x256x1024.size a
  h_S2x256x1024 : 0 < S2x256x1024.numel
  shapeCasts_S2x256x1024_S2x256x1024 : S2x256x1024.ShapeCasts S2x256x1024
  reduces_S2x256x1024_S2x256 : S2x256x1024.Reduces [2] S2x256
  concatenates_S2x256_S2x256_S4x256_d0 : Shape.Concatenates [S2x256, S2x256] S4x256 0
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4x16 : S1x16.Broadcasts S4x16
  inb_S16x256_S16x256_0_0 : ∀ a, (![0, 0] : Fin 2 → Nat) a + S16x256.size a ≤ S16x256.size a
  h_S16x256 : 0 < S16x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4x256 : S1x256.Broadcasts S4x256
  slices_S4x256_o0_0_S2x256 : S4x256.Slices ![0, 0] S2x256
  slices_S4x256_o2_0_S2x256 : S4x256.Slices ![2, 0] S2x256
  shapeCasts_S2x256_S2x256x1 : S2x256.ShapeCasts S2x256x1
  broadcasts_S2x256x1_S2x256x1024 : S2x256x1.Broadcasts S2x256x1024
  shapeCasts_S64x256x1024_S64x256x32x32 : S64x256x1024.ShapeCasts S64x256x32x32
  dot_S4x256_S256x16_S4x16_1_0_0_1_n_n_wf : DotDims.WF S4x256 S256x16 S4x16 [1] [0] [0] [1] [] []
  dot_S4x16_S16x256_S4x256_1_0_0_1_n_n_wf : DotDims.WF S4x16 S16x256 S4x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x1024.size a ≤ S64x256x1024.size a
  hwx0_0 : ∀ i : grid0.Coords, EltTy.bits .f32 = 32 ∨ (Rect.block (s := S64x256x1024) S2x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S16x256.size a
  hwx0_3 : ∀ i : grid0.Coords, EltTy.bits .f32 = 32 ∨ (Rect.block (s := S16x256) S16x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x256x1024.size a ≤ S64x256x1024.size a
  hwx0_5 : ∀ i : grid0.Coords, EltTy.bits .f32 = 32 ∨ (Rect.block (s := S64x256x1024) S2x256x1024.size (cc0_transform_5 i) (hinb0_5 i)).WholeWords (EltTy.packing .f32)

variable [Facts₀]

def dot_S4x256_S256x16_S4x16_1_0_0_1_n_n : DotDims S4x256 S256x16 S4x16 where
  lhsContracting := [1]
  rhsContracting := [0]
  lhsNonContracting := [0]
  rhsNonContracting := [1]
  lhsBatch := []
  rhsBatch := []
  wf := dot_S4x256_S256x16_S4x16_1_0_0_1_n_n_wf
def dot_S4x16_S16x256_S4x256_1_0_0_1_n_n : DotDims S4x16 S16x256 S4x256 where
  lhsContracting := [1]
  rhsContracting := [0]
  lhsNonContracting := [0]
  rhsNonContracting := [1]
  lhsBatch := []
  rhsBatch := []
  wf := dot_S4x16_S16x256_S4x256_1_0_0_1_n_n_wf

abbrev win0_0 : Pipeline.Window sig grid0 :=
  Pipeline.Window.ofSpec (Memref.whole main_v2) S2x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.GateLaw.lean ====
/-
  The algebra of the channel gate's second layer, on the extended reals.

  Both programs pool a block of the feature map two ways (the mean and the maximum over the spatial axis), push
  the two pooled rows through the first layer and a rectifier, and then need, per channel `q`,
    "second layer of the mean row  +  second layer of the maximum row",
  each second layer being a product with `w` plus the bias `b`. One program adds the two rectified rows first,
  multiplies once and adds the bias doubled; the other multiplies each row, adds the bias to each, and adds the
  results. The two agree because the rectified entries are nonnegative: on the extended reals
  `(a + a') * w = a * w + a' * w` holds whenever `0 ≤ a` and `0 ≤ a'`, whatever `w` is (a sum of nonnegative
  terms is never `∞ - ∞`), and `b * 2 = b + b` holds for every `b`, the infinities included. No input needs to
  be finite for this.
-/
import Idealize.ShloMosaic.PureOps.Ideal
import Mathlib.Data.EReal.Operations
import Mathlib.Algebra.BigOperators.Group.Finset.Basic

noncomputable section

namespace Cert.Gate

open Idealize.ShloMosaic

/-- The word `0x40000000` is the number two. -/
theorem ofBits_two : Ideal.ofBits .f32 0x40000000#32 = 2 := by
  simp [Ideal.ofBits, Ideal.ieee, -EReal.coe_mul]; norm_num; norm_cast

/-- Doubling is adding to itself, at the infinities too: `2 = 1 + 1` and both ones are nonnegative. -/
theorem mul_two_eq (b : EReal) : b * 2 = b + b := by
  rw [← one_add_one_eq_two, EReal.left_distrib_of_nonneg zero_le_one zero_le_one, mul_one]

/-- One product of the summed nonnegative rows plus the doubled bias is the sum of the two rows' own products
    and biases. -/
theorem two_rows {K : ℕ} (a a' w : Fin K → EReal) (b : EReal) (ha : ∀ k, 0 ≤ a k) (ha' : ∀ k, 0 ≤ a' k) :
    (∑ k, (a k + a' k) * w k) + b * 2 = ((∑ k, a k * w k) + b) + ((∑ k, a' k * w k) + b) := by
  have hsplit : (∑ k, (a k + a' k) * w k) = (∑ k, a k * w k) + ∑ k, a' k * w k := by
    rw [← Finset.sum_add_distrib]
    exact Finset.sum_congr rfl fun k _ => EReal.right_distrib_of_nonneg (ha k) (ha' k)
  rw [hsplit, mul_two_eq]
  exact add_add_add_comm _ _ _ _

end Cert.Gate

end
-- ==== Proof.Payload.lean ====
/-
  The two kernel bodies write the same block.

  A block is two batch rows of the feature map, `x : [2, 256, 1024]`. Both bodies form the same `[4, 16]` array
  of hidden activations `h`: rows 0 and 1 come from the spatial means of the block's two batch rows, rows 2 and 3
  from their spatial maxima, each row pushed through the first layer `w1`, the bias `b1` and the rectifier
  `max(·, 0)`. They differ only in how the gate's pre-activation `[2, 256]` is formed from `h`:
    * one adds `h`'s rows `p` and `p + 2`, multiplies the `[2, 16]` sum by `w2`, and adds a bias row that the
      host doubled beforehand;
    * the other multiplies all four rows by `w2`, adds the (undoubled) bias to each, and adds rows `p` and `p + 2`.
  Entry `(p, q)` is `∑ₖ (h p k + h (p+2) k) · w2 k q + 2·b q` on one side and
  `(∑ₖ h p k · w2 k q + b q) + (∑ₖ h (p+2) k · w2 k q + b q)` on the other; every `h` entry is a maximum with
  zero, hence nonnegative, which is what the law `Cert.Gate.two_rows` asks. The logistic function, the broadcast
  over the spatial axis and the final product with `x` are the same text on both sides and are never opened.
-/
import proofs.«134317_g2000301520905045_pallasbulk_16_2_alg».proof.Proof.Gen.KernelIdeal.Skeleton
import proofs.«134317_g2000301520905045_pallasbulk_16_2_alg».proof.Proof.Gen.ReferenceIdeal.Skeleton
import proofs.«134317_g2000301520905045_pallasbulk_16_2_alg».proof.Proof.LibDot
import proofs.«134317_g2000301520905045_pallasbulk_16_2_alg».proof.Proof.GateLaw
import Idealize.ShloMosaic.Lib.ValueIdx
import Idealize.ShloMosaic.Lib.ValueLayout
import Idealize.ShloMosaic.Lib.Pipeline.Value
import Idealize.ShloMosaic.PureOps.Ideal.Laws

noncomputable section

namespace Cert.Gate

open Idealize.ShloMosaic Idealize.ShloMosaic.ValueIdx
open Cert.KernelIdeal Cert.KernelIdeal.Gen

/-- The hidden activations of a block: the spatial mean (the sum times `2⁻¹⁰`) and the spatial maximum of each of
    the two batch rows, stacked into four rows, times `w1`, plus `b1`, rectified. -/
def hidden (x : FVec Ideal S2x256x1024 .f32) (w1 : FVec Ideal S256x16 .f32) (b1 : FVec Ideal S1x16 .f32) : FVec Ideal S4x16 .f32 :=
  have v1 : FVec Ideal S2x256x1024 .f32 := shapeCast S2x256x1024 x shapeCasts_S2x256x1024_S2x256x1024
  have v2 : FVec Ideal S2x256 .f32 := multiReduction .add [2] S2x256 v1 0x00000000#32 reduces_S2x256x1024_S2x256 (.inl rfl) rfl
  have v4 : FVec Ideal S2x256 .f32 := mulf v2 (broadcast S2x256 (Scalar.ofBits .f32 0x3A800000#32))
  have v5 : FVec Ideal S2x256 .f32 := multiReduction .maximumf [2] S2x256 v1 0xFF800000#32 reduces_S2x256x1024_S2x256 (.inl rfl) rfl
  have v6 : FVec Ideal S4x256 .f32 := concatenate S4x256 0 [⟨S2x256, v4⟩, ⟨S2x256, v5⟩] concatenates_S2x256_S2x256_S4x256_d0
  have v8 : FVec Ideal S4x16 .f32 := matmul dot_S4x256_S256x16_S4x16_1_0_0_1_n_n none v6 w1 (constant S4x16 .f32 0x00000000#32)
  have v11 : FVec Ideal S4x16 .f32 := broadcastTo S4x16 (shapeCast S1x16 b1 shapeCasts_S1x16_S1x16) broadcasts_S1x16_S4x16
  maximumf (addf v8 v11) (broadcast S4x16 (Scalar.ofBits .f32 0x00000000#32))

/-- What both bodies do with the gate's pre-activation: the logistic function of it, one value per (batch row,
    channel), spread over the spatial axis and multiplied into the block. -/
def scaled (x : FVec Ideal S2x256x1024 .f32) (att : FVec Ideal S2x256 .f32) : FVec Ideal S2x256x1024 .f32 :=
  mulf (shapeCast S2x256x1024 x shapeCasts_S2x256x1024_S2x256x1024)
    (broadcastTo S2x256x1024 (shapeCast S2x256x1 (logistic att) shapeCasts_S2x256_S2x256x1) broadcasts_S2x256x1_S2x256x1024)

/-- The pre-activation, rows added before the second layer; `b` is the doubled bias row. -/
def preSummed (h : FVec Ideal S4x16 .f32) (w2 : FVec Ideal S16x256 .f32) (b : FVec Ideal S1x256 .f32) : FVec Ideal S2x256 .f32 :=
  addf (matmul dot_S2x16_S16x256_S2x256_1_0_0_1_n_n none
      (addf (extractStridedSlice S2x16 ![0, 0] h slices_S4x16_o0_0_S2x16) (extractStridedSlice S2x16 ![2, 0] h slices_S4x16_o2_0_S2x16))
      w2 (constant S2x256 .f32 0x00000000#32))
    (broadcastTo S2x256 (shapeCast S1x256 b shapeCasts_S1x256_S1x256) broadcasts_S1x256_S2x256)

/-- The second layer applied to all four hidden rows, bias included. -/
def secondLayer (h : FVec Ideal S4x16 .f32) (w2 : FVec Ideal S16x256 .f32) (b : FVec Ideal S1x256 .f32) : FVec Ideal S4x256 .f32 :=
  addf (matmul Cert.ReferenceIdeal.dot_S4x16_S16x256_S4x256_1_0_0_1_n_n none h w2 (constant S4x256 .f32 0x00000000#32))
    (broadcastTo S4x256 (shapeCast S1x256 b shapeCasts_S1x256_S1x256) Cert.ReferenceIdeal.Gen.broadcasts_S1x256_S4x256)

/-- The pre-activation, rows added after the second layer. -/
def preSplit (h : FVec Ideal S4x16 .f32) (w2 : FVec Ideal S16x256 .f32) (b : FVec Ideal S1x256 .f32) : FVec Ideal S2x256 .f32 :=
  addf (extractStridedSlice S2x256 ![0, 0] (secondLayer h w2 b) Cert.ReferenceIdeal.Gen.slices_S4x256_o0_0_S2x256)
    (extractStridedSlice S2x256 ![2, 0] (secondLayer h w2 b) Cert.ReferenceIdeal.Gen.slices_S4x256_o2_0_S2x256)

/-- The first body's stored value in this vocabulary. -/
theorem summed_body (x : FVec Ideal S2x256x1024 .f32) (w1 : FVec Ideal S256x16 .f32) (b1 : FVec Ideal S1x16 .f32)
    (w2 : FVec Ideal S16x256 .f32) (b : FVec Ideal S1x256 .f32) :
    Cert.KernelIdeal.Gen.k0_pay1 (F := Ideal) x w1 b1 w2 b = scaled x (preSummed (hidden x w1 b1) w2 b) := rfl

/-- The second body's stored value in this vocabulary. -/
theorem split_body (x : FVec Ideal S2x256x1024 .f32) (w1 : FVec Ideal S256x16 .f32) (b1 : FVec Ideal S1x16 .f32)
    (w2 : FVec Ideal S16x256 .f32) (b : FVec Ideal S1x256 .f32) :
    Cert.ReferenceIdeal.Gen.k0_pay1 (F := Ideal) x w1 b1 w2 b = scaled x (preSplit (hidden x w1 b1) w2 b) := rfl

/-- A hidden activation is a maximum with zero. -/
theorem hidden_nonneg (x : FVec Ideal S2x256x1024 .f32) (w1 : FVec Ideal S256x16 .f32) (b1 : FVec Ideal S1x16 .f32)
    (i : S4x16.Idx) : 0 ≤ hidden x w1 b1 i := by
  unfold hidden
  show (0 : EReal) ≤ max _ (Ideal.ofBits .f32 0x00000000#32)
  rw [Ideal.ofBits_zero_f32]
  exact le_max_right _ _

/-- Entry `(r, q)` of the second layer: the product row `r` by column `q`, plus the bias at `q`. -/
theorem secondLayer_apply (h : FVec Ideal S4x16 .f32) (w2 : FVec Ideal S16x256 .f32) (b : FVec Ideal S1x256 .f32)
    (r : Fin 4) (q : Fin 256) :
    secondLayer h w2 b (ix2 r q) = (∑ k : Fin 16, h (ix2 r k) * w2 (ix2 k q)) + b (ix2 (0 : Fin 1) q) := by
  unfold secondLayer
  rw [addf_apply]
  refine congrArg₂ (· + ·) ?_ ?_
  · exact Cert.GNN.matmul_plain_zero_apply (M := 4) (K := 16) (N := 256) none h w2 r q
  · rw [broadcastTo_1b_ab_apply, shapeCast_self]

/-- THE TWO PRE-ACTIVATIONS AGREE when the hidden activations are nonnegative and the first bias row is the
    second doubled. -/
theorem pre_eq (h : FVec Ideal S4x16 .f32) (hnn : ∀ i, 0 ≤ h i) (w2 : FVec Ideal S16x256 .f32) (b b' : FVec Ideal S1x256 .f32)
    (hb : ∀ q : Fin 256, b' (ix2 (0 : Fin 1) q) = b (ix2 (0 : Fin 1) q) * 2) : preSummed h w2 b' = preSplit h w2 b := by
  funext j
  obtain ⟨p, q, rfl⟩ : ∃ (p : Fin 2) (q : Fin 256), j = ix2 p q := ⟨j 0, j 1, eq_ix2 j⟩
  have hp : p.val < 2 := p.isLt
  -- the two hidden rows that feed output row `p`: the mean's and the maximum's
  obtain ⟨lo, hlo⟩ : ∃ lo : Fin 4, lo.val = 0 + p.val := ⟨⟨p.val, by omega⟩, by simp⟩
  obtain ⟨hi, hhi⟩ : ∃ hi : Fin 4, hi.val = 2 + p.val := ⟨⟨p.val + 2, by omega⟩, by simp; omega⟩
  have hK : preSummed h w2 b' (ix2 p q)
      = (∑ k : Fin 16, (h (ix2 lo k) + h (ix2 hi k)) * w2 (ix2 k q)) + b' (ix2 (0 : Fin 1) q) := by
    unfold preSummed
    rw [addf_apply]
    refine congrArg₂ (· + ·) ?_ ?_
    · refine (Cert.GNN.matmul_plain_zero_apply (M := 2) (K := 16) (N := 256) none _ w2 p q).trans ?_
      refine Finset.sum_congr rfl fun k _ => ?_
      rw [addf_apply, slice2_axis0_apply 0 h _ p k lo hlo, slice2_axis0_apply 2 h _ p k hi hhi]
    · rw [broadcastTo_1b_ab_apply, shapeCast_self]
  have hR : preSplit h w2 b (ix2 p q)
      = ((∑ k : Fin 16, h (ix2 lo k) * w2 (ix2 k q)) + b (ix2 (0 : Fin 1) q))
        + ((∑ k : Fin 16, h (ix2 hi k) * w2 (ix2 k q)) + b (ix2 (0 : Fin 1) q)) := by
    unfold preSplit
    rw [addf_apply, slice2_axis0_apply 0 _ _ p q lo hlo, slice2_axis0_apply 2 _ _ p q hi hhi,
      secondLayer_apply, secondLayer_apply]
  rw [hK, hR, hb q]
  exact two_rows _ _ _ _ (fun k => hnn _) (fun k => hnn _)

/-- THE TWO BODIES STORE THE SAME BLOCK, given the doubled bias row. -/
theorem bodies_eq (x : FVec Ideal S2x256x1024 .f32) (w1 : FVec Ideal S256x16 .f32) (b1 : FVec Ideal S1x16 .f32)
    (w2 : FVec Ideal S16x256 .f32) (b b' : FVec Ideal S1x256 .f32)
    (hb : ∀ q : Fin 256, b' (ix2 (0 : Fin 1) q) = b (ix2 (0 : Fin 1) q) * 2) :
    Cert.KernelIdeal.Gen.k0_pay1 (F := Ideal) x w1 b1 w2 b' = Cert.ReferenceIdeal.Gen.k0_pay1 (F := Ideal) x w1 b1 w2 b := by
  rw [summed_body, split_body, pre_eq (hidden x w1 b1) (hidden_nonneg x w1 b1) w2 b b' hb]

end Cert.Gate

end
-- ==== Proof.Blocks.lean ====
/-
  A function applied block by block along the batch axis.

  The feature map `[64, 256, 1024]` is cut along its first axis into 32 blocks of two batch rows, `[2, 256, 1024]`.
  Both programs compute each output block from the input block at the same place (and from arrays that do not
  change from block to block). `blockwise f X` is the whole array this builds: at index `i` it is `f` of the block
  of `X` that holds batch row `i 0`, read at `i`'s position inside that block. Batch row `b` lies in block
  `b / 2`, at row `b % 2` of it; entry `y` of that block is entry `(2 · (b / 2) + y 0, y 1, y 2)` of the array.
-/
import Idealize.ShloMosaic.Lib.ValueIdx

noncomputable section

namespace Cert.Gate

open Idealize.ShloMosaic Idealize.ShloMosaic.ValueIdx

/-- The whole feature map's shape, and one block's. -/
abbrev Arr : Shape := ⟨3, ![64, 256, 1024]⟩
abbrev Blk : Shape := ⟨3, ![2, 256, 1024]⟩

/-- Where entry `y` of the block that holds batch row `b` sits in the array. -/
def inBlock (b : Fin 64) (y : Blk.Idx) : Arr.Idx :=
  have h0 : (y 0).val < 2 := (y 0).isLt
  ix3 (⟨2 * (b.val / 2) + (y 0).val, by have := b.isLt; omega⟩ : Fin 64) (y 1 : Fin 256) (y 2 : Fin 1024)

/-- An array index's position inside its block. -/
def posInBlock (i : Arr.Idx) : Blk.Idx :=
  ix3 (⟨(i 0).val % 2, Nat.mod_lt _ (by decide)⟩ : Fin 2) (i 1 : Fin 256) (i 2 : Fin 1024)

/-- `f` applied to every block of `X`. -/
def blockwise {α : Type} (f : (Blk.Idx → α) → (Blk.Idx → α)) (X : Arr.Idx → α) : Arr.Idx → α :=
  fun i => f (fun y => X (inBlock (i 0) y)) (posInBlock i)

/-- `f` of a block `x`, read at `j`, is `blockwise f X` at any array index `i` whose block is `x` and whose position in
    it is `j`. -/
theorem blockwise_at {α : Type} (f : (Blk.Idx → α) → (Blk.Idx → α)) (X : Arr.Idx → α) (x : Blk.Idx → α) (i : Arr.Idx) (j : Blk.Idx)
    (hx : ∀ y, x y = X (inBlock (i 0) y)) (hj : posInBlock i = j) : f x j = blockwise f X i := by
  subst hj
  obtain rfl : x = fun y => X (inBlock (i 0) y) := funext hx
  rfl

/-- Two block functions that agree on every block give the same array. -/
theorem blockwise_congr {α : Type} (f g : (Blk.Idx → α) → (Blk.Idx → α)) (h : ∀ x, f x = g x) (X : Arr.Idx → α) :
    blockwise f X = blockwise g X := by
  funext i
  unfold blockwise
  rw [h]

end Cert.Gate

end
-- ==== Proof.Gate.lean ====
/-
  The two programs as functions of their five arguments, and their equality.

  Both programs flatten the feature map's two spatial axes `[64, 256, 32, 32] → [64, 256, 1024]`, view the two bias
  vectors as one-row matrices, run their kernel body on every block of two batch rows, and unflatten the result. The
  first also doubles the second bias on the host before the region. With the bodies equal block by block
  (`Cert.Gate.bodies_eq`) the two functions are equal; what is left to check here is that the host's doubled row is,
  entry by entry, the plain row times two: the host multiplies by a scalar constant spread over the vector, and that
  constant's word is the number two.
-/
import proofs.«134317_g2000301520905045_pallasbulk_16_2_alg».proof.Proof.Payload
import proofs.«134317_g2000301520905045_pallasbulk_16_2_alg».proof.Proof.Blocks

noncomputable section

namespace Cert.Gate

open Idealize.ShloMosaic Idealize.ShloMosaic.ValueIdx
open Cert.KernelIdeal Cert.KernelIdeal.Gen

/-- The feature map with its spatial axes flattened, and back. -/
def flat (x : FVec Ideal S64x256x32x32 .f32) : FVec Ideal S64x256x1024 .f32 :=
  shapeCast S64x256x1024 x shapeCasts_S64x256x32x32_S64x256x1024
def unflat (y : FVec Ideal S64x256x1024 .f32) : FVec Ideal S64x256x32x32 .f32 :=
  shapeCast S64x256x32x32 y shapeCasts_S64x256x1024_S64x256x32x32

/-- A bias vector as a one-row matrix. -/
def row16 (b : FVec Ideal S16 .f32) : FVec Ideal S1x16 .f32 := shapeCast S1x16 b shapeCasts_S16_S1x16
def row256 (b : FVec Ideal S256 .f32) : FVec Ideal S1x256 .f32 := shapeCast S1x256 b shapeCasts_S256_S1x256

/-- The second bias times the constant two, as the host computes it, as a one-row matrix. -/
def doubledRow (b : FVec Ideal S256 .f32) : FVec Ideal S1x256 .f32 :=
  shapeCast S1x256 (mulf b (broadcastInDim S256 ![] bcast_S_S256 (constant S_ .f32 0x40000000#32))) shapeCasts_S256_S1x256

/-- The first program: rows added before the second layer, the bias doubled on the host. -/
def gateSummed (x : FVec Ideal S64x256x32x32 .f32) (w1 : FVec Ideal S256x16 .f32) (b1 : FVec Ideal S16 .f32)
    (w2 : FVec Ideal S16x256 .f32) (b2 : FVec Ideal S256 .f32) : FVec Ideal S64x256x32x32 .f32 :=
  unflat (blockwise (fun xb => Cert.KernelIdeal.Gen.k0_pay1 (F := Ideal) xb w1 (row16 b1) w2 (doubledRow b2)) (flat x))

/-- The second program: rows added after the second layer. -/
def gateSplit (x : FVec Ideal S64x256x32x32 .f32) (w1 : FVec Ideal S256x16 .f32) (b1 : FVec Ideal S16 .f32)
    (w2 : FVec Ideal S16x256 .f32) (b2 : FVec Ideal S256 .f32) : FVec Ideal S64x256x32x32 .f32 :=
  unflat (blockwise (fun xb => Cert.ReferenceIdeal.Gen.k0_pay1 (F := Ideal) xb w1 (row16 b1) w2 (row256 b2)) (flat x))

/-- Entry `q` of the doubled row is entry `q` of the plain row times two. -/
theorem doubledRow_apply (b : FVec Ideal S256 .f32) (q : Fin 256) :
    doubledRow b (ix2 (0 : Fin 1) q) = row256 b (ix2 (0 : Fin 1) q) * 2 := by
  unfold doubledRow row256
  rw [shapeCast_a_1a_apply, shapeCast_a_1a_apply, mulf_apply]
  refine congrArg (b (ix1 q) * ·) ?_
  rw [broadcastInDim_apply ![] bcast_S_S256 _ (ix1 q) ix0 (fun a => a.elim0), constant_apply]
  exact ofBits_two

/-- THE TWO PROGRAMS ARE ONE FUNCTION of their arguments. -/
theorem gate_eq (x : FVec Ideal S64x256x32x32 .f32) (w1 : FVec Ideal S256x16 .f32) (b1 : FVec Ideal S16 .f32)
    (w2 : FVec Ideal S16x256 .f32) (b2 : FVec Ideal S256 .f32) : gateSummed x w1 b1 w2 b2 = gateSplit x w1 b1 w2 b2 := by
  unfold gateSummed gateSplit
  refine congrArg unflat (blockwise_congr _ _ (fun xb => ?_) _)
  exact bodies_eq xb w1 (row16 b1) w2 (row256 b2) (doubledRow b2) (doubledRow_apply b2)

end Cert.Gate

end
-- ==== Proof.KernelArray.lean ====
/-
  The first program's result is `Cert.Gate.gateSummed` of its arguments.

  The region's six windows: the flattened feature map, cut into blocks of two batch rows (window 0, block `t` at
  point `t`); the two weight matrices and the two bias rows, each staged whole (windows 1 to 4); and the output, cut
  like the feature map (window 5). Point `t` writes back the body's value on the feature map's block `t`, so the output
  array ends as the body applied block by block.
  Before the region the host flattens the feature map, views the first bias as a row, and doubles the second bias and views it as a row.
  After it the host unflattens the output array.
-/
import proofs.«134317_g2000301520905045_pallasbulk_16_2_alg».proof.Proof.Gen.KernelIdeal.Frame
import proofs.«134317_g2000301520905045_pallasbulk_16_2_alg».proof.Proof.Gate
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.Gate

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The arrays the region finds -/

/-- The feature map, flattened by the host. -/
theorem found_x (c : Dev nD) : V m c main_v4 = flat (m ((c : Thread nD τ).loc main_arg0)) := by
  show StableHlo.after hostOps0 (fun b => m (c, b)) (Proc.devRef .tc main_v4) = _
  after_results
  rfl

/-- The first bias as a row. -/
theorem found_b1 (c : Dev nD) : V m c main_v0 = row16 (m ((c : Thread nD τ).loc main_arg2)) := by
  show StableHlo.after hostOps0 (fun b => m (c, b)) (Proc.devRef .tc main_v0) = _
  after_results
  rfl

/-- The second bias as the row the body is given. -/
theorem found_b2 (c : Dev nD) : V m c main_v3 = doubledRow (m ((c : Thread nD τ).loc main_arg4)) := by
  show StableHlo.after hostOps0 (fun b => m (c, b)) (Proc.devRef .tc main_v3) = _
  after_results
  rfl

/-! ## The output array -/

/-- The body at this launch's small operands, as a function of a block of the feature map. -/
def body (c : Dev nD) (xb : Blk.Idx → EReal) : Blk.Idx → EReal :=
  k0_pay1 (F := Ideal) xb (m ((c : Thread nD τ).loc main_arg1)) (row16 (m ((c : Thread nD τ).loc main_arg2)))
    (m ((c : Thread nD τ).loc main_arg3)) (doubledRow (m ((c : Thread nD τ).loc main_arg4)))

/-- The output array after the run: the body on every block of the flattened feature map. -/
def G (c : Dev nD) : Arr.Idx → EReal := blockwise (body m c) (flat (m ((c : Thread nD τ).loc main_arg0)))

/-- The printed index maps, decided over the 32 points: the feature map's and the output's blocks move along the
    batch axis with the point, every other block index is zero. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Entry `y` of the feature map's block at point `t` is the flattened array's entry `y` of the block that holds the
    batch row of any entry `j` of the output's block at `t`: both blocks start at batch row `2t`. -/
theorem block0 (c : Dev nD) (t : Fin cfg0.N) (j y : Blk.Idx) :
    iblk m c 0 t y = flat (m ((c : Thread nD τ).loc main_arg0)) (inBlock ((((cfg0.win 5).blk t).view.emb j) 0) y) := by
  show V m c main_v4 (((cfg0.win 0).blk t).view.emb y) = _
  rw [found_x]
  refine congrArg (flat (m ((c : Thread nD τ).loc main_arg0))) ?_
  obtain ⟨e0, e1, e2, f0, f1, f2, -⟩ := idx_facts t
  have hj : (j 0).val < 2 := (j 0).isLt
  have hy : (y 0).val < 2 := (y 0).isLt
  funext a; apply Fin.ext
  match a with
  | ⟨0, _⟩ =>
    show win0_0.index t (0 : Fin 3) * 2 + 1 * (y 0).val = 2 * ((win0_5.index t (0 : Fin 3) * 2 + 1 * (j 0).val) / 2) + (y 0).val
    rw [e0, f0]; omega
  | ⟨1, _⟩ => show win0_0.index t (1 : Fin 3) * 256 + 1 * (y 1).val = (y 1).val; rw [e1]; omega
  | ⟨2, _⟩ => show win0_0.index t (2 : Fin 3) * 1024 + 1 * (y 2).val = (y 2).val; rw [e2]; omega

/-- An entry of the output's block at `t` sits in the array at its own position inside its block. -/
theorem pos5 (t : Fin cfg0.N) (j : Blk.Idx) : posInBlock (((cfg0.win 5).blk t).view.emb j) = j := by
  obtain ⟨-, -, -, f0, f1, f2, -⟩ := idx_facts t
  have hj : (j 0).val < 2 := (j 0).isLt
  funext a; apply Fin.ext
  match a with
  | ⟨0, _⟩ => show (win0_5.index t (0 : Fin 3) * 2 + 1 * (j 0).val) % 2 = (j 0).val; rw [f0]; omega
  | ⟨1, _⟩ => show win0_5.index t (1 : Fin 3) * 256 + 1 * (j 1).val = (j 1).val; rw [f1]; omega
  | ⟨2, _⟩ => show win0_5.index t (2 : Fin 3) * 1024 + 1 * (j 2).val = (j 2).val; rw [f2]; omega

/-- The four small operands are staged whole: their one block is the array the region finds. -/
theorem whole1 (c : Dev nD) (t : Fin cfg0.N) : iblk m c 1 t = m ((c : Thread nD τ).loc main_arg1) := by
  refine Eq.trans ?_ (V_main_arg1 m c)
  funext y
  show V m c main_arg1 (((cfg0.win 1).blk t).view.emb y) = V m c main_arg1 y
  refine congrArg (V m c main_arg1) ?_
  obtain ⟨-, -, -, -, -, -, e0, e1, -⟩ := idx_facts t
  funext a; apply Fin.ext
  match a with
  | ⟨0, _⟩ => show win0_1.index t (0 : Fin 2) * 256 + 1 * (y 0).val = (y 0).val; rw [e0]; omega
  | ⟨1, _⟩ => show win0_1.index t (1 : Fin 2) * 16 + 1 * (y 1).val = (y 1).val; rw [e1]; omega
theorem whole2 (c : Dev nD) (t : Fin cfg0.N) : iblk m c 2 t = row16 (m ((c : Thread nD τ).loc main_arg2)) := by
  refine Eq.trans ?_ (found_b1 m c)
  funext y
  show V m c main_v0 (((cfg0.win 2).blk t).view.emb y) = V m c main_v0 y
  refine congrArg (V m c main_v0) ?_
  obtain ⟨-, -, -, -, -, -, -, -, e0, e1, -⟩ := idx_facts t
  funext a; apply Fin.ext
  match a with
  | ⟨0, _⟩ => show win0_2.index t (0 : Fin 2) * 1 + 1 * (y 0).val = (y 0).val; rw [e0]; omega
  | ⟨1, _⟩ => show win0_2.index t (1 : Fin 2) * 16 + 1 * (y 1).val = (y 1).val; rw [e1]; omega
theorem whole3 (c : Dev nD) (t : Fin cfg0.N) : iblk m c 3 t = m ((c : Thread nD τ).loc main_arg3) := by
  refine Eq.trans ?_ (V_main_arg3 m c)
  funext y
  show V m c main_arg3 (((cfg0.win 3).blk t).view.emb y) = V m c main_arg3 y
  refine congrArg (V m c main_arg3) ?_
  obtain ⟨-, -, -, -, -, -, -, -, -, -, e0, e1, -⟩ := idx_facts t
  funext a; apply Fin.ext
  match a with
  | ⟨0, _⟩ => show win0_3.index t (0 : Fin 2) * 16 + 1 * (y 0).val = (y 0).val; rw [e0]; omega
  | ⟨1, _⟩ => show win0_3.index t (1 : Fin 2) * 256 + 1 * (y 1).val = (y 1).val; rw [e1]; omega
theorem whole4 (c : Dev nD) (t : Fin cfg0.N) : iblk m c 4 t = doubledRow (m ((c : Thread nD τ).loc main_arg4)) := by
  refine Eq.trans ?_ (found_b2 m c)
  funext y
  show V m c main_v3 (((cfg0.win 4).blk t).view.emb y) = V m c main_v3 y
  refine congrArg (V m c main_v3) ?_
  obtain ⟨-, -, -, -, -, -, -, -, -, -, -, -, e0, e1⟩ := idx_facts t
  funext a; apply Fin.ext
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

/-- WHAT POINT `t` WRITES BACK is block `t` of `G`. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  unfold out0_5
  rw [View.canon_unit_zero hz3]
  simp only [View.ld_unit_zero (S := S2x256x1024) hz3, View.ld_unit_zero (S := S256x16) hz2, View.ld_unit_zero (S := S1x16) hz2,
    View.ld_unit_zero (S := S16x256) hz2, View.ld_unit_zero (S := S1x256) hz2]
  rw [whole1 m c t, whole2 m c t, whole3 m c t, whole4 m c t]
  funext j
  show body m c (iblk m c 0 t) j = G m c (((cfg0.win 5).blk t).view.emb j)
  exact blockwise_at (body m c) (flat (m ((c : Thread nD τ).loc main_arg0))) (iblk m c 0 t) (((cfg0.win 5).blk t).view.emb j) j
    (fun y => block0 m c t j y) (pos5 t j)

/-- An index of the array is in point `t`'s block iff each coordinate is in the block's range on its axis. -/
theorem mem_blk (t : Fin cfg0.N) (i : S64x256x1024.Idx) :
    i ∈ ((cfg0.win 5).blk t).view.set ↔ ∀ a : Fin 3, win0_5.index t a * S2x256x1024.size a ≤ (i a).val ∧ (i a).val < win0_5.index t a * S2x256x1024.size a + S2x256x1024.size a := by
  show i ∈ ((View.whole main_v5).slice (win0_5.rect t)).set ↔ _
  rw [View.set_slice_whole, Rect.mem_set_unit]
  exact Iff.rfl

/-- Every index of the array is in some point's block: batch row `b` in point `b / 2`'s. -/
theorem cover (i : S64x256x1024.Idx) : ∃ t : Fin cfg0.N, (cfg0.win 5).flush t = true ∧ i ∈ ((cfg0.win 5).blk t).view.set := by
  have hi0 : (i 0).val < 64 := (i 0).isLt
  have hi1 : (i 1).val < 256 := (i 1).isLt
  have hi2 : (i 2).val < 1024 := (i 2).isLt
  have hN : grid0.N = 32 := N_0
  obtain ⟨t, ht⟩ : ∃ t : Fin cfg0.N, t.val = (i 0).val / 2 := ⟨⟨(i 0).val / 2, by show (i 0).val / 2 < grid0.N; rw [hN]; omega⟩, rfl⟩
  obtain ⟨-, -, -, f0, f1, f2, -⟩ := idx_facts t
  refine ⟨t, flush0_5 t, ?_⟩
  rw [mem_blk]
  intro a
  match a with
  | ⟨0, _⟩ => show win0_5.index t (0 : Fin 3) * 2 ≤ (i 0).val ∧ (i 0).val < win0_5.index t (0 : Fin 3) * 2 + 2; rw [f0, ht]; omega
  | ⟨1, _⟩ => show win0_5.index t (1 : Fin 3) * 256 ≤ (i 1).val ∧ (i 1).val < win0_5.index t (1 : Fin 3) * 256 + 256; rw [f1]; omega
  | ⟨2, _⟩ => show win0_5.index t (2 : Fin 3) * 1024 ≤ (i 2).val ∧ (i 2).val < win0_5.index t (2 : Fin 3) * 1024 + 1024; rw [f2]; omega

/-- THE OUTPUT ARRAY after the run is `G`. -/
theorem final (c : Dev nD) : (dats m 0 c).arrAt 5 cfg0.N = G m c :=
  (dats m 0 c).arrAt_eq_of_cover 5 (G m c) (fun t _ => flushed_eq m c t) cover

/-! ## The result -/

/-- The host's last line unflattens the output array: the program's result. -/
theorem result (c : Dev nD) :
    Pipeline.afterTail₀ cfgs (dats m) 0 (V0 m) [hostOps1] c main_v6
      = gateSummed (m ((c : Thread nD τ).loc main_arg0)) (m ((c : Thread nD τ).loc main_arg1)) (m ((c : Thread nD τ).loc main_arg2))
          (m ((c : Thread nD τ).loc main_arg3)) (m ((c : Thread nD τ).loc main_arg4)) := by
  have harr : Pipeline.withArrays (cfgs 0).spec c (V0 m c) (fun w => (dats m 0 c).arrAt w (cfgs 0).N) (Proc.devRef .tc main_v5) = G m c :=
    (Pipeline.withArrays_arr spec0 launch0.win.arr_inj c (V0 m c) (fun w => (dats m 0 c).arrAt w cfg0.N) 5).trans (final m c)
  unfold Pipeline.afterTail₀
  show StableHlo.after hostOps1 _ (Proc.devRef .tc main_v6) = _
  after_results
  rw [harr]
  rfl

/-- THE RUN: every weakly fair execution ends with the result at `gateSummed` of the arguments, the arguments unchanged. -/
theorem run : θ_run defs (onTc (τ := τ) (main (F := Ideal))) ⟨m, fun _ => 0, ρ⟩ fun r => ∀ c : Dev nD,
      r.2.mem ((c.tc : Thread nD τ).loc main_v6)
        = gateSummed (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v6 (Pipeline.mem_restRefs_of main_v6 (by decide) (by decide))).trans (result m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c))⟩)
    (run_main m ρ)

end Cert.KernelIdeal.Whole

end
-- ==== Proof.ReferenceArray.lean ====
/-
  The second program's result is `Cert.Gate.gateSplit` of its arguments.

  The region's six windows: the flattened feature map, cut into blocks of two batch rows (window 0, block `t` at
  point `t`); the two weight matrices and the two bias rows, each staged whole (windows 1 to 4); and the output, cut
  like the feature map (window 5). Point `t` writes back the body's value on the feature map's block `t`, so the output
  array ends as the body applied block by block.
  Before the region the host flattens the feature map and views each bias as a row.
  After it the host unflattens the output array.
-/
import proofs.«134317_g2000301520905045_pallasbulk_16_2_alg».proof.Proof.Gen.ReferenceIdeal.Frame
import proofs.«134317_g2000301520905045_pallasbulk_16_2_alg».proof.Proof.Gate
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.ReferenceIdeal.Whole

open Cert.ReferenceIdeal Cert.ReferenceIdeal.Gen Cert.Gate

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The arrays the region finds -/

/-- The feature map, flattened by the host. -/
theorem found_x (c : Dev nD) : V m c main_v2 = flat (m ((c : Thread nD τ).loc main_arg0)) := by
  show StableHlo.after hostOps0 (fun b => m (c, b)) (Proc.devRef .tc main_v2) = _
  after_results
  rfl

/-- The first bias as a row. -/
theorem found_b1 (c : Dev nD) : V m c main_v0 = row16 (m ((c : Thread nD τ).loc main_arg2)) := by
  show StableHlo.after hostOps0 (fun b => m (c, b)) (Proc.devRef .tc main_v0) = _
  after_results
  rfl

/-- The second bias as the row the body is given. -/
theorem found_b2 (c : Dev nD) : V m c main_v1 = row256 (m ((c : Thread nD τ).loc main_arg4)) := by
  show StableHlo.after hostOps0 (fun b => m (c, b)) (Proc.devRef .tc main_v1) = _
  after_results
  rfl

/-! ## The output array -/

/-- The body at this launch's small operands, as a function of a block of the feature map. -/
def body (c : Dev nD) (xb : Blk.Idx → EReal) : Blk.Idx → EReal :=
  k0_pay1 (F := Ideal) xb (m ((c : Thread nD τ).loc main_arg1)) (row16 (m ((c : Thread nD τ).loc main_arg2)))
    (m ((c : Thread nD τ).loc main_arg3)) (row256 (m ((c : Thread nD τ).loc main_arg4)))

/-- The output array after the run: the body on every block of the flattened feature map. -/
def G (c : Dev nD) : Arr.Idx → EReal := blockwise (body m c) (flat (m ((c : Thread nD τ).loc main_arg0)))

/-- The printed index maps, decided over the 32 points: the feature map's and the output's blocks move along the
    batch axis with the point, every other block index is zero. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Entry `y` of the feature map's block at point `t` is the flattened array's entry `y` of the block that holds the
    batch row of any entry `j` of the output's block at `t`: both blocks start at batch row `2t`. -/
theorem block0 (c : Dev nD) (t : Fin cfg0.N) (j y : Blk.Idx) :
    iblk m c 0 t y = flat (m ((c : Thread nD τ).loc main_arg0)) (inBlock ((((cfg0.win 5).blk t).view.emb j) 0) y) := by
  show V m c main_v2 (((cfg0.win 0).blk t).view.emb y) = _
  rw [found_x]
  refine congrArg (flat (m ((c : Thread nD τ).loc main_arg0))) ?_
  obtain ⟨e0, e1, e2, f0, f1, f2, -⟩ := idx_facts t
  have hj : (j 0).val < 2 := (j 0).isLt
  have hy : (y 0).val < 2 := (y 0).isLt
  funext a; apply Fin.ext
  match a with
  | ⟨0, _⟩ =>
    show win0_0.index t (0 : Fin 3) * 2 + 1 * (y 0).val = 2 * ((win0_5.index t (0 : Fin 3) * 2 + 1 * (j 0).val) / 2) + (y 0).val
    rw [e0, f0]; omega
  | ⟨1, _⟩ => show win0_0.index t (1 : Fin 3) * 256 + 1 * (y 1).val = (y 1).val; rw [e1]; omega
  | ⟨2, _⟩ => show win0_0.index t (2 : Fin 3) * 1024 + 1 * (y 2).val = (y 2).val; rw [e2]; omega

/-- An entry of the output's block at `t` sits in the array at its own position inside its block. -/
theorem pos5 (t : Fin cfg0.N) (j : Blk.Idx) : posInBlock (((cfg0.win 5).blk t).view.emb j) = j := by
  obtain ⟨-, -, -, f0, f1, f2, -⟩ := idx_facts t
  have hj : (j 0).val < 2 := (j 0).isLt
  funext a; apply Fin.ext
  match a with
  | ⟨0, _⟩ => show (win0_5.index t (0 : Fin 3) * 2 + 1 * (j 0).val) % 2 = (j 0).val; rw [f0]; omega
  | ⟨1, _⟩ => show win0_5.index t (1 : Fin 3) * 256 + 1 * (j 1).val = (j 1).val; rw [f1]; omega
  | ⟨2, _⟩ => show win0_5.index t (2 : Fin 3) * 1024 + 1 * (j 2).val = (j 2).val; rw [f2]; omega

/-- The four small operands are staged whole: their one block is the array the region finds. -/
theorem whole1 (c : Dev nD) (t : Fin cfg0.N) : iblk m c 1 t = m ((c : Thread nD τ).loc main_arg1) := by
  refine Eq.trans ?_ (V_main_arg1 m c)
  funext y
  show V m c main_arg1 (((cfg0.win 1).blk t).view.emb y) = V m c main_arg1 y
  refine congrArg (V m c main_arg1) ?_
  obtain ⟨-, -, -, -, -, -, e0, e1, -⟩ := idx_facts t
  funext a; apply Fin.ext
  match a with
  | ⟨0, _⟩ => show win0_1.index t (0 : Fin 2) * 256 + 1 * (y 0).val = (y 0).val; rw [e0]; omega
  | ⟨1, _⟩ => show win0_1.index t (1 : Fin 2) * 16 + 1 * (y 1).val = (y 1).val; rw [e1]; omega
theorem whole2 (c : Dev nD) (t : Fin cfg0.N) : iblk m c 2 t = row16 (m ((c : Thread nD τ).loc main_arg2)) := by
  refine Eq.trans ?_ (found_b1 m c)
  funext y
  show V m c main_v0 (((cfg0.win 2).blk t).view.emb y) = V m c main_v0 y
  refine congrArg (V m c main_v0) ?_
  obtain ⟨-, -, -, -, -, -, -, -, e0, e1, -⟩ := idx_facts t
  funext a; apply Fin.ext
  match a with
  | ⟨0, _⟩ => show win0_2.index t (0 : Fin 2) * 1 + 1 * (y 0).val = (y 0).val; rw [e0]; omega
  | ⟨1, _⟩ => show win0_2.index t (1 : Fin 2) * 16 + 1 * (y 1).val = (y 1).val; rw [e1]; omega
theorem whole3 (c : Dev nD) (t : Fin cfg0.N) : iblk m c 3 t = m ((c : Thread nD τ).loc main_arg3) := by
  refine Eq.trans ?_ (V_main_arg3 m c)
  funext y
  show V m c main_arg3 (((cfg0.win 3).blk t).view.emb y) = V m c main_arg3 y
  refine congrArg (V m c main_arg3) ?_
  obtain ⟨-, -, -, -, -, -, -, -, -, -, e0, e1, -⟩ := idx_facts t
  funext a; apply Fin.ext
  match a with
  | ⟨0, _⟩ => show win0_3.index t (0 : Fin 2) * 16 + 1 * (y 0).val = (y 0).val; rw [e0]; omega
  | ⟨1, _⟩ => show win0_3.index t (1 : Fin 2) * 256 + 1 * (y 1).val = (y 1).val; rw [e1]; omega
theorem whole4 (c : Dev nD) (t : Fin cfg0.N) : iblk m c 4 t = row256 (m ((c : Thread nD τ).loc main_arg4)) := by
  refine Eq.trans ?_ (found_b2 m c)
  funext y
  show V m c main_v1 (((cfg0.win 4).blk t).view.emb y) = V m c main_v1 y
  refine congrArg (V m c main_v1) ?_
  obtain ⟨-, -, -, -, -, -, -, -, -, -, -, -, e0, e1⟩ := idx_facts t
  funext a; apply Fin.ext
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

/-- WHAT POINT `t` WRITES BACK is block `t` of `G`. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  unfold out0_5
  rw [View.canon_unit_zero hz3]
  simp only [View.ld_unit_zero (S := S2x256x1024) hz3, View.ld_unit_zero (S := S256x16) hz2, View.ld_unit_zero (S := S1x16) hz2,
    View.ld_unit_zero (S := S16x256) hz2, View.ld_unit_zero (S := S1x256) hz2]
  rw [whole1 m c t, whole2 m c t, whole3 m c t, whole4 m c t]
  funext j
  show body m c (iblk m c 0 t) j = G m c (((cfg0.win 5).blk t).view.emb j)
  exact blockwise_at (body m c) (flat (m ((c : Thread nD τ).loc main_arg0))) (iblk m c 0 t) (((cfg0.win 5).blk t).view.emb j) j
    (fun y => block0 m c t j y) (pos5 t j)

/-- An index of the array is in point `t`'s block iff each coordinate is in the block's range on its axis. -/
theorem mem_blk (t : Fin cfg0.N) (i : S64x256x1024.Idx) :
    i ∈ ((cfg0.win 5).blk t).view.set ↔ ∀ a : Fin 3, win0_5.index t a * S2x256x1024.size a ≤ (i a).val ∧ (i a).val < win0_5.index t a * S2x256x1024.size a + S2x256x1024.size a := by
  show i ∈ ((View.whole main_v3).slice (win0_5.rect t)).set ↔ _
  rw [View.set_slice_whole, Rect.mem_set_unit]
  exact Iff.rfl

/-- Every index of the array is in some point's block: batch row `b` in point `b / 2`'s. -/
theorem cover (i : S64x256x1024.Idx) : ∃ t : Fin cfg0.N, (cfg0.win 5).flush t = true ∧ i ∈ ((cfg0.win 5).blk t).view.set := by
  have hi0 : (i 0).val < 64 := (i 0).isLt
  have hi1 : (i 1).val < 256 := (i 1).isLt
  have hi2 : (i 2).val < 1024 := (i 2).isLt
  have hN : grid0.N = 32 := N_0
  obtain ⟨t, ht⟩ : ∃ t : Fin cfg0.N, t.val = (i 0).val / 2 := ⟨⟨(i 0).val / 2, by show (i 0).val / 2 < grid0.N; rw [hN]; omega⟩, rfl⟩
  obtain ⟨-, -, -, f0, f1, f2, -⟩ := idx_facts t
  refine ⟨t, flush0_5 t, ?_⟩
  rw [mem_blk]
  intro a
  match a with
  | ⟨0, _⟩ => show win0_5.index t (0 : Fin 3) * 2 ≤ (i 0).val ∧ (i 0).val < win0_5.index t (0 : Fin 3) * 2 + 2; rw [f0, ht]; omega
  | ⟨1, _⟩ => show win0_5.index t (1 : Fin 3) * 256 ≤ (i 1).val ∧ (i 1).val < win0_5.index t (1 : Fin 3) * 256 + 256; rw [f1]; omega
  | ⟨2, _⟩ => show win0_5.index t (2 : Fin 3) * 1024 ≤ (i 2).val ∧ (i 2).val < win0_5.index t (2 : Fin 3) * 1024 + 1024; rw [f2]; omega

/-- THE OUTPUT ARRAY after the run is `G`. -/
theorem final (c : Dev nD) : (dats m 0 c).arrAt 5 cfg0.N = G m c :=
  (dats m 0 c).arrAt_eq_of_cover 5 (G m c) (fun t _ => flushed_eq m c t) cover

/-! ## The result -/

/-- The host's last line unflattens the output array: the program's result. -/
theorem result (c : Dev nD) :
    Pipeline.afterTail₀ cfgs (dats m) 0 (V0 m) [hostOps1] c main_v4
      = gateSplit (m ((c : Thread nD τ).loc main_arg0)) (m ((c : Thread nD τ).loc main_arg1)) (m ((c : Thread nD τ).loc main_arg2))
          (m ((c : Thread nD τ).loc main_arg3)) (m ((c : Thread nD τ).loc main_arg4)) := by
  have harr : Pipeline.withArrays (cfgs 0).spec c (V0 m c) (fun w => (dats m 0 c).arrAt w (cfgs 0).N) (Proc.devRef .tc main_v3) = G m c :=
    (Pipeline.withArrays_arr spec0 launch0.win.arr_inj c (V0 m c) (fun w => (dats m 0 c).arrAt w cfg0.N) 5).trans (final m c)
  unfold Pipeline.afterTail₀
  show StableHlo.after hostOps1 _ (Proc.devRef .tc main_v4) = _
  after_results
  rw [harr]
  rfl

/-- THE RUN: every weakly fair execution ends with the result at `gateSplit` of the arguments, the arguments unchanged. -/
theorem run : θ_run defs (onTc (τ := τ) (main (F := Ideal))) ⟨m, fun _ => 0, ρ⟩ fun r => ∀ c : Dev nD,
      r.2.mem ((c.tc : Thread nD τ).loc main_v4)
        = gateSplit (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v4 (Pipeline.mem_restRefs_of main_v4 (by decide) (by decide))).trans (result m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c))⟩)
    (run_main m ρ)

end Cert.ReferenceIdeal.Whole

end
-- ==== Proof.lean ====
/-
  A channel gate: per batch row and channel, the spatial mean and the spatial maximum of the feature map go through
  a shared two-layer perceptron (256 → 16 → 256, a rectifier in between), the two outputs are added, and the logistic
  function of the sum scales that channel of that batch row. Both programs are one pipelined kernel over blocks of two
  batch rows, with the same windows and the same body up to the rectified hidden activations `h` (four rows: two of
  means, two of maxima). They differ in the second layer:

    first program    `(h[0:2] + h[2:4]) · w2 + 2·b2`            (the host doubles `b2` before the region)
    second program   `(h · w2 + b2)[0:2] + (h · w2 + b2)[2:4]`

  On the extended reals the two agree because every entry of `h` is a maximum with zero: for nonnegative `a, a'`,
  `(a + a')·w = a·w + a'·w` whatever `w` is, and `b·2 = b + b` for every `b` (Proof/GateLaw.lean). So the claim holds
  for all inputs, and the finiteness precondition is never used.

  The modules: Proof/GateLaw.lean, the law; Proof/LibDot.lean, a matrix product at an entry as a sum over `k`;
  Proof/Payload.lean, the two bodies store the same block (they share the text up to `h`, then the law, entry by
  entry); Proof/Blocks.lean, a function applied block by block along the batch axis; Proof/Gate.lean, each program as
  one function of its five arguments, and their equality; Proof/KernelArray.lean and Proof/ReferenceArray.lean, each
  program's run ends with its result at that function (the frame run's output array read off block by block, the
  host's reshapes before and after the region). The three frames are the generated ones; the idealization rewrote
  nothing, so there is nothing to preserve.
-/
import proofs.«134317_g2000301520905045_pallasbulk_16_2_alg».proof.Defs
import proofs.«134317_g2000301520905045_pallasbulk_16_2_alg».proof.Proof.Gen.Kernel
import proofs.«134317_g2000301520905045_pallasbulk_16_2_alg».proof.Proof.Gen.Kernel.Frame
import proofs.«134317_g2000301520905045_pallasbulk_16_2_alg».proof.Proof.Gen.KernelIdeal
import proofs.«134317_g2000301520905045_pallasbulk_16_2_alg».proof.Proof.Gen.KernelIdeal.Frame
import proofs.«134317_g2000301520905045_pallasbulk_16_2_alg».proof.Proof.Gen.ReferenceIdeal
import proofs.«134317_g2000301520905045_pallasbulk_16_2_alg».proof.Proof.Gen.ReferenceIdeal.Frame
import proofs.«134317_g2000301520905045_pallasbulk_16_2_alg».proof.Proof.Gen.Pre_finite_inputs
import proofs.«134317_g2000301520905045_pallasbulk_16_2_alg».proof.Proof.KernelArray
import proofs.«134317_g2000301520905045_pallasbulk_16_2_alg».proof.Proof.ReferenceArray

noncomputable section

namespace Cert.Proof

open Idealize.ShloMosaic Idealize.SL.Sem

/-- From memories that agree on the five arguments both idealized programs run, leave the arguments as they were, and
    end with the same result: the first's is `gateSummed` of the arguments, the second's `gateSplit`, one function. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun r h c => ⟨(h c).1.trans ?_, (h c).2⟩)
    (Cert.ReferenceIdeal.Whole.run m' ρ')
  rw [(hagree c).1, (hagree c).2.1, (hagree c).2.2.1, (hagree c).2.2.2.1, (hagree c).2.2.2.2]
  exact (Cert.Gate.gate_eq _ _ _ _ _).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
